-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10240 : Shape := ⟨2, ![8192, 10240]⟩
abbrev S256x10240 : Shape := ⟨2, ![256, 10240]⟩
abbrev S_ : Shape := ⟨0, ![]⟩

class Facts : Prop where
  bcast_S_S8192x10240 : S_.BroadcastsInDim S8192x10240 (![] : Fin 0 → Fin S8192x10240.rank)
  reducesTo_S8192x10240_S_d0_1 : S8192x10240.ReducesTo [0, 1] S_
  h_S_ : 0 < S_.numel
  bcast_S_S256x10240 : S_.BroadcastsInDim S256x10240 (![] : Fin 0 → Fin S256x10240.rank)
  reducesTo_S256x10240_S_d0_1 : S256x10240.ReducesTo [0, 1] S_

variable [Facts]

def fn {F : FTy → Type} [FloatOps F] (main_arg0 : FVec F S8192x10240 .f32) (main_arg1 : FVec F S256x10240 .f32) : IVec S_ 1 :=
  let main_v0 : FVec F S8192x10240 .f32 := Host.absf main_arg0
  let main_cst : FVec F S_ .f32 := constant S_ .f32 0x7F800000#32
  let main_v1 : FVec F S8192x10240 .f32 := broadcastInDim S8192x10240 ![] bcast_S_S8192x10240 main_cst
  let main_v2 : IVec S8192x10240 1 := cmpf .olt main_v0 main_v1
  let main_c : IVec S_ 1 := constantI S_ 1 1#1
  let main_v3 : IVec S_ 1 := (fun x v => Host.reduce IntOp.andi x v reducesTo_S8192x10240_S_d0_1 h_S_) main_v2 main_c
  let main_v4 : FVec F S256x10240 .f32 := Host.absf main_arg1
  let main_cst_0 : FVec F S_ .f32 := constant S_ .f32 0x7F800000#32
  let main_v5 : FVec F S256x10240 .f32 := broadcastInDim S256x10240 ![] bcast_S_S256x10240 main_cst_0
  let main_v6 : IVec S256x10240 1 := cmpf .olt main_v4 main_v5
  let main_c_1 : IVec S_ 1 := constantI S_ 1 1#1
  let main_v7 : IVec S_ 1 := (fun x v => Host.reduce IntOp.andi x v reducesTo_S256x10240_S_d0_1 h_S_) main_v6 main_c_1
  let main_v8 : IVec S_ 1 := andi main_v3 main_v7
  main_v8
-- ==== Kernel.lean ====
abbrev S8192x10240 : Shape := ⟨2, ![8192, 10240]⟩
abbrev S256x10240 : Shape := ⟨2, ![256, 10240]⟩
abbrev S8192x256 : Shape := ⟨2, ![8192, 256]⟩
abbrev S256x256 : Shape := ⟨2, ![256, 256]⟩
abbrev S256x2560 : Shape := ⟨2, ![256, 2560]⟩

abbrev nBuf : Space → Nat
  | .hbm => 4
  | .vmem => 5
  | .smem => 0
  | _ => 0

abbrev bufTy : (tb : Table) → Fin (tcTables nBuf tb) → BufTy
  | .hbm, ⟨0, _⟩ => ⟨S8192x10240, .f32⟩
  | .hbm, ⟨1, _⟩ => ⟨S256x10240, .f32⟩
  | .hbm, ⟨2, _⟩ => ⟨S256x10240, .bf16⟩
  | .hbm, ⟨3, _⟩ => ⟨S8192x256, .f32⟩
  | .local _ .vmem, ⟨0, _⟩ => ⟨S256x10240, .f32⟩
  | .local _ .vmem, ⟨1, _⟩ => ⟨S256x10240, .f32⟩
  | .local _ .vmem, ⟨2, _⟩ => ⟨S256x10240, .bf16⟩
  | .local _ .vmem, ⟨3, _⟩ => ⟨S256x256, .f32⟩
  | .local _ .vmem, ⟨4, _⟩ => ⟨S256x256, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let c2560_i32 : BitVec 32 := 2560#32
  let v5 : BitVec 32 := Scalar.muli v4 c2560_i32
  v5
def k0_off1 (k0_t1 : Fin k0_t1_loop.trips) : Fin 2 → Nat :=
  let c0_4 : Index := 0#32
  let c0_i32_3 : BitVec 32 := 0#32
  let c0_i32 : BitVec 32 := 0#32
  let c1_i32 : BitVec 32 := 1#32
  let arg4 : BitVec 32 := Scf.iv c0_i32 c1_i32 k0_t1
  let c1_i32_2 : BitVec 32 := 1#32
  let v3 : BitVec 32 := Scalar.muli arg4 c1_i32_2
  let v4 : BitVec 32 := Scalar.addi c0_i32_3 v3
  let c2560_i32 : BitVec 32 := 2560#32
  let v5 : BitVec 32 := Scalar.muli v4 c2560_i32
  let v6 : BitVec 32 := v5
  let v7 : Index := Scalar.indexCast v6
  ![0, v7.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  h_S256x2560 : 0 < S256x2560.numel
  shapeCasts_S256x2560_S256x2560 : S256x2560.ShapeCasts S256x2560
  shapeCasts_S256x256_S256x256 : S256x256.ShapeCasts S256x256
  dot_S256x2560_S256x2560_S256x256_1_1_0_0_n_n_wf : DotDims.WF S256x2560 S256x2560 S256x256 [1] [1] [0] [0] [] []
  hrank0 : 0 < grid0.rank
  k0_t1_ok : k0_t1_loop.OK
  k0_mult1_dvd : ∀ k0_t1 : Fin k0_t1_loop.trips, 2560 ∣ (k0_mult1 k0_t1).toNat
  k0_off1_inb : ∀ k0_t1 : Fin k0_t1_loop.trips, ∀ a, (k0_off1 k0_t1) a + S256x2560.size a ≤ S256x10240.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10240.size a ≤ S8192x10240.size a
  hwx0_0 : ∀ i : grid0.Coords, EltTy.bits .f32 = 32 ∨ (Rect.block (s := S8192x10240) S256x10240.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x10240.size a ≤ S256x10240.size a
  hwx0_1 : ∀ i : grid0.Coords, EltTy.bits .bf16 = 32 ∨ (Rect.block (s := S256x10240) S256x10240.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x256.size a
  hwx0_2 : ∀ i : grid0.Coords, EltTy.bits .f32 = 32 ∨ (Rect.block (s := S8192x256) S256x256.size (cc0_transform_2 i) (hinb0_2 i)).WholeWords (EltTy.packing .f32)

variable [Facts₀]

def dot_S256x2560_S256x2560_S256x256_1_1_0_0_n_n : DotDims S256x2560 S256x2560 S256x256 where
  lhsContracting := [1]
  rhsContracting := [1]
  lhsNonContracting := [0]
  rhsNonContracting := [0]
  lhsBatch := []
  rhsBatch := []
  wf := dot_S256x2560_S256x2560_S256x256_1_1_0_0_n_n_wf

abbrev win0_0 : Pipeline.Window sig grid0 :=
  Pipeline.Window.ofSpec (Memref.whole main_arg0) S256x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x10240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x10240 : Shape := ⟨2, ![8192, 10240]⟩
abbrev S256x10240 : Shape := ⟨2, ![256, 10240]⟩
abbrev S8192x256 : Shape := ⟨2, ![8192, 256]⟩

abbrev nBuf : Space → Nat
  | .hbm => 3
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S256x10240, .f32⟩
  | .hbm, ⟨2, _⟩ => ⟨S8192x256, .f32⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x10240_S256x10240_S8192x256_1_1_0_0_n_n_wf : DotDims.WF S8192x10240 S256x10240 S8192x256 [1] [1] [0] [0] [] []

variable [Facts₀]

def dot_S8192x10240_S256x10240_S8192x256_1_1_0_0_n_n : DotDims S8192x10240 S256x10240 S8192x256 where
  lhsContracting := [1]
  rhsContracting := [1]
  lhsNonContracting := [0]
  rhsNonContracting := [0]
  lhsBatch := []
  rhsBatch := []
  wf := dot_S8192x10240_S256x10240_S8192x256_1_1_0_0_n_n_wf

class Facts : Prop extends Facts₀ where

variable [Facts]
-- ==== Proof.Trip.lean ====
/-
  What the kernel body leaves in its 256 × 256 output block.

  The body zeroes the block, then makes four trips; trip k reads columns 2560·k … 2560·k + 2559 of the two
  256 × 10240 input blocks, multiplies them (contracting the columns) into a zero accumulator, adds the product to what
  the block holds, and stores the sum back over the whole block. So the block after trip k is a function
  `step` of the block before it, and the body leaves `step 3 (step 2 (step 1 (step 0 zero)))`.

  Every store of the body covers the whole block, so what the block reads after a list of stores is the payload of the
  last one; the payload of trip k's store mentions the block's earlier contents only through the load that precedes it,
  which reads what the earlier stores left.
-/
import proofs.«402725_j68762426409220_3_alg».proof.Proof.Gen.KernelIdeal.Frame
import Idealize.ShloMosaic.Lib.Pipeline.Value

set_option maxRecDepth 16384

noncomputable section

namespace Cert.KernelIdeal.Accum

open Cert.KernelIdeal Cert.KernelIdeal.Gen Idealize.ShloMosaic Idealize.ShloMosaic.TcCoe Idealize.ShloMosaic.Tactic Idealize.SL.Sem

variable {F : FTy → Type} [FloatOps F]

/-- Columns 2560·k … 2560·k + 2559 of a 256 × 10240 block: what trip k loads of each input. -/
abbrev chunk (k : Fin k0_t1_loop.trips) : Rect S256x10240 :=
  Rect.unit (s := S256x10240) (k0_off1 k) S256x2560.size (k0_off1_inb k)

/-- The whole 256 × 256 block: what every store writes and every load of the output reads. -/
abbrev wholeOut : Rect S256x256 :=
  Rect.unit (s := S256x256) ![0, 0] S256x256.size inb_S256x256_S256x256_0_0

theorem zeros : (![0, 0] : Fin 2 → Nat) = fun _ => 0 := funext fun a => by fin_cases a <;> rfl

/-- The loop makes four trips. -/
theorem trips_eq : k0_t1_loop.trips = 4 := by decide +kernel

/-- The block after trip k, from the block before it: the earlier contents plus the product of the two inputs' k-th
    column chunks. -/
def step (x0 : Vec F S256x10240 .f32) (x1 : Vec F S256x10240 .bf16) (k : Fin k0_t1_loop.trips)
    (a : Vec F S256x256 .f32) : Vec F S256x256 .f32 :=
  k0_pay2 (View.ld x0 (chunk k)) (View.ld x1 (chunk k)) a

/-- The zero block the body stores first. -/
abbrev zeroPiece : View.Piece (Elt F) S256x256 .f32 := ⟨wholeOut, k0_pay1⟩

/-- Trip k stores ONE piece: the whole block, at the sum computed from the chunks it loads of the inputs' contents and
    from the output block as it finds it. -/
theorem trip_piece (𝒱 : Variants) (c : Dev nD) (bd : Option 𝒱.V) (i : grid0.Coords)
    (arg1 : Memref sig .tc .vmem S256x10240 .f32) (harg1 : arg1.IsWhole)
    (arg2 : Memref sig .tc .vmem S256x10240 .bf16) (harg2 : arg2.IsWhole)
    (arg3 : Memref sig .tc .vmem S256x256 .f32) (harg3 : arg3.IsWhole)
    (X1 : BufTy.Contents (Elt F) arg1.view.ty) (X2 : BufTy.Contents (Elt F) arg2.view.ty)
    (k : Fin k0_t1_loop.trips) (f : BufTy.Contents (Elt F) arg3.view.ty) :
    tripL_k0_t1 (F := F) 𝒱 c bd i arg1 harg1 arg2 harg2 arg3 harg3 X1 X2 k f
      = [⟨wholeOut, k0_pay2 (View.readAt (Elt F) arg1.view (chunk k).toLoadRect X1)
            (View.readAt (Elt F) arg2.view (chunk k).toLoadRect X2)
            (View.readAt (Elt F) arg3.view wholeOut.toLoadRect f)⟩] := by
  unfold tripL_k0_t1 trip_k0_t1
  rfl

/-- The four trips. -/
def t0 : Fin k0_t1_loop.trips := ⟨0, by rw [trips_eq]; decide⟩
def t1 : Fin k0_t1_loop.trips := ⟨1, by rw [trips_eq]; decide⟩
def t2 : Fin k0_t1_loop.trips := ⟨2, by rw [trips_eq]; decide⟩
def t3 : Fin k0_t1_loop.trips := ⟨3, by rw [trips_eq]; decide⟩

section Stores

variable (c : Dev nD) (i : grid0.Coords)
  (arg1 : Memref sig .tc .vmem S256x10240 .f32) (harg1 : arg1.IsWhole)
  (arg2 : Memref sig .tc .vmem S256x10240 .bf16) (harg2 : arg2.IsWhole)
  (arg3 : Memref sig .tc .vmem S256x256 .f32) (harg3 : arg3.IsWhole)
  (x0 : Vec F S256x10240 .f32) (x1 : Vec F S256x10240 .bf16)

/-- The stores of the trips before `n`, last first, from the block as the zero store left it. -/
abbrev storesBefore (n : ℕ) : List (View.Piece (Elt F) S256x256 .f32) :=
  pb_k0_t1 (F := F) Variants.none c none i arg1 harg1 arg2 harg2 arg3 harg3 (harg1.unread x0) (harg2.unread x1)
    (arg3.view.writes (Elt F) arg3.view.junk [zeroPiece]) n

/-- The zero store comes first, and covers the block: so do the stores up to any trip. -/
theorem covered (n : ℕ) (y : S256x256.Idx) :
    ∃ p ∈ storesBefore c i arg1 harg1 arg2 harg2 arg3 harg3 x0 x1 n ++ [zeroPiece], y ∈ p.1.set :=
  ⟨zeroPiece, by simp, View.mem_set_unit_zero zeros inb_S256x256_S256x256_0_0 y⟩

/-- Before any trip the block reads zero. -/
theorem canon_zero :
    View.canon (storesBefore c i arg1 harg1 arg2 harg2 arg3 harg3 x0 x1 0 ++ [zeroPiece]) = k0_pay1 (F := F) := by
  show View.canon [zeroPiece] = _
  exact View.canon_unit_zero zeros _ _

/-- After trip k the block reads `step k` of what it read before it: trip k's store is the last and covers the block,
    and the load it made of the block read what the earlier stores had left. -/
theorem canon_succ (k : Fin k0_t1_loop.trips) :
    View.canon (storesBefore c i arg1 harg1 arg2 harg2 arg3 harg3 x0 x1 (k.val + 1) ++ [zeroPiece])
      = step x0 x1 k (View.canon (storesBefore c i arg1 harg1 arg2 harg2 arg3 harg3 x0 x1 k.val ++ [zeroPiece])) := by
  unfold storesBefore
  rw [pb_k0_t1_succ, trip_piece, List.append_assoc, List.singleton_append, View.canon_cons_unit_zero zeros]
  unfold step
  simp only [View.readAt_eq_ld, harg1.read_unread, harg2.read_unread, View.ld_unit_zero (S := S256x256) zeros]
  rw [← View.writes_append, View.read_writes_eq_canon _ _ _ (covered c i arg1 harg1 arg2 harg2 arg3 harg3 x0 x1 k.val)]

end Stores

/-- WHAT THE BODY LEAVES in its output block, from the two input blocks: the zero block after the four trips' steps. The
    run's stores are the zero store and then the four trips', each found at the block as the earlier ones left it. -/
theorem block_eq (c : Dev nD) (i : grid0.Coords)
    (arg1 : Memref sig .tc .vmem S256x10240 .f32) (harg1 : arg1.IsWhole)
    (arg2 : Memref sig .tc .vmem S256x10240 .bf16) (harg2 : arg2.IsWhole)
    (arg3 : Memref sig .tc .vmem S256x256 .f32) (harg3 : arg3.IsWhole)
    (x0 : Vec F S256x10240 .f32) (x1 : Vec F S256x10240 .bf16) :
    out0_A_2 c i arg1 harg1 arg2 harg2 arg3 harg3 x0 x1
      = step x0 x1 t3 (step x0 x1 t2 (step x0 x1 t1 (step x0 x1 t0 (k0_pay1 (F := F))))) := by
  unfold out0_A_2
  rw [View.read_writes_eq_canon _ _ _ (cover0_A_2 c i arg1 harg1 arg2 harg2 arg3 harg3 x0 x1)]
  have e : (kernelRun0_A c i arg1 harg1 arg2 harg2 arg3 harg3 x0 x1).1
      = storesBefore c i arg1 harg1 arg2 harg2 arg3 harg3 x0 x1 (t3.val + 1) ++ [zeroPiece] := by
    unfold kernelRun0_A
    dsimp only
    sl_unfold_words
    rw [show Scf.trips (0#32) (Scalar.addi 0#32 4#32) 1#32 = 4 from by decide +kernel]
    rfl
  rw [e, canon_succ, show t3.val = t2.val + 1 from rfl, canon_succ, show t2.val = t1.val + 1 from rfl, canon_succ,
    show t1.val = t0.val + 1 from rfl, canon_succ, show t0.val = 0 from rfl, canon_zero]

end Cert.KernelIdeal.Accum

end
-- ==== Proof.StepValue.lean ====
/-
  One trip's step, read at an index over the extended reals.

  At the ideal instance a change of float format is the identity and the matrix unit's product into a zero accumulator is
  the plain sum of products over the contracted axis. Trip k contracts the 2560 columns 2560·k … 2560·k + 2559 of the
  two input blocks, so entry (p, q) of the block after the trip is the entry before it plus
      Σ_{r < 2560} x0[p, 2560·k + r] · x1[q, 2560·k + r].
-/
import proofs.«402725_j68762426409220_3_alg».proof.Proof.Trip
import Idealize.ShloMosaic.Lib.ValueIdx
import Idealize.ShloMosaic.PureOps.Ideal.Laws

noncomputable section

namespace Cert.KernelIdeal.Accum

open Cert.KernelIdeal Cert.KernelIdeal.Gen Idealize.ShloMosaic Idealize.ShloMosaic.ValueIdx
open scoped BigOperators

/-- Column 2560·k + r of the 10240: the r-th column of trip k's chunk. -/
def col (k : Fin k0_t1_loop.trips) (r : Fin 2560) : Fin 10240 :=
  ⟨2560 * k.val + r.val, by have hk : k.val < 4 := lt_of_lt_of_eq k.isLt trips_eq; have hr := r.isLt; omega⟩

theorem col_val (k : Fin k0_t1_loop.trips) (r : Fin 2560) : (col k r).val = 2560 * k.val + r.val := rfl

/-! The product's operand indices at output entry `i` and contracted position `q`: the left operand is read at row
    `i 0`, the right at row `i 1`, both at column `q`. -/

theorem lhs_0 (i : S256x256.Idx) (q : dot_S256x2560_S256x2560_S256x256_1_1_0_0_n_n.contr.Idx) :
    (dot_S256x2560_S256x2560_S256x256_1_1_0_0_n_n.lhsIdx i q 0).val = (i 0).val := by
  unfold DotDims.lhsIdx
  rw [dif_neg (show ¬(0 : Fin S256x2560.rank) ∈ dot_S256x2560_S256x2560_S256x256_1_1_0_0_n_n.lhsBatch by decide), dif_pos (show (0 : Fin S256x2560.rank) ∈ dot_S256x2560_S256x2560_S256x256_1_1_0_0_n_n.lhsNonContracting by decide)]
  rfl
theorem lhs_1 (i : S256x256.Idx) (q : dot_S256x2560_S256x2560_S256x256_1_1_0_0_n_n.contr.Idx) :
    (dot_S256x2560_S256x2560_S256x256_1_1_0_0_n_n.lhsIdx i q 1).val = (q ⟨0, by decide⟩).val :=
  dot_S256x2560_S256x2560_S256x256_1_1_0_0_n_n.lhsIdx_val_of_single rfl i q
theorem rhs_0 (i : S256x256.Idx) (q : dot_S256x2560_S256x2560_S256x256_1_1_0_0_n_n.contr.Idx) :
    (dot_S256x2560_S256x2560_S256x256_1_1_0_0_n_n.rhsIdx i q 0).val = (i 1).val := by
  unfold DotDims.rhsIdx
  rw [dif_neg (show ¬(0 : Fin S256x2560.rank) ∈ dot_S256x2560_S256x2560_S256x256_1_1_0_0_n_n.rhsBatch by decide), dif_pos (show (0 : Fin S256x2560.rank) ∈ dot_S256x2560_S256x2560_S256x256_1_1_0_0_n_n.rhsNonContracting by decide)]
  rfl
theorem rhs_1 (i : S256x256.Idx) (q : dot_S256x2560_S256x2560_S256x256_1_1_0_0_n_n.contr.Idx) :
    (dot_S256x2560_S256x2560_S256x256_1_1_0_0_n_n.rhsIdx i q 1).val = (q ⟨0, by decide⟩).val :=
  dot_S256x2560_S256x2560_S256x256_1_1_0_0_n_n.rhsIdx_val_of_single rfl i q

/-- Entry (p, q) of the block after trip k: the entry before it plus the sum of products over the trip's 2560 columns. -/
theorem step_apply (x0 : Vec Ideal S256x10240 .f32) (x1 : Vec Ideal S256x10240 .bf16) (k : Fin k0_t1_loop.trips)
    (a : Vec Ideal S256x256 .f32) (p q : Fin 256) :
    step x0 x1 k a (ix2 p q)
      = a (ix2 p q) + ∑ r : Fin 2560, x0 (ix2 p (col k r)) * x1 (ix2 q (col k r)) := by
  unfold step k0_pay2
  rw [shapeCast_self, shapeCast_self, addf_apply]
  simp only [matmul]
  rw [Ideal.matmul_constant_zero_apply, ← Equiv.sum_comp (contrEquiv1 dot_S256x2560_S256x2560_S256x256_1_1_0_0_n_n 2560 rfl rfl).symm]
  refine congrArg (a (ix2 p q) + ·) (Finset.sum_congr rfl fun r _ => ?_)
  have hk := contrEquiv1_symm_val dot_S256x2560_S256x2560_S256x256_1_1_0_0_n_n 2560 rfl rfl r
  have el : (chunk k).idx (dot_S256x2560_S256x2560_S256x256_1_1_0_0_n_n.lhsIdx (ix2 p q)
      ((contrEquiv1 dot_S256x2560_S256x2560_S256x256_1_1_0_0_n_n 2560 rfl rfl).symm r)) = ix2 p (col k r) :=
    funext fun ax => Fin.ext (by
      match ax with
      | ⟨0, _⟩ =>
        show k0_off1 k 0 + 1 * (dot_S256x2560_S256x2560_S256x256_1_1_0_0_n_n.lhsIdx (ix2 p q) _ 0).val = p.val
        rw [k0_off1_eq, lhs_0]
        show 0 + 1 * p.val = p.val
        omega
      | ⟨1, _⟩ =>
        show k0_off1 k 1 + 1 * (dot_S256x2560_S256x2560_S256x256_1_1_0_0_n_n.lhsIdx (ix2 p q) _ 1).val = 2560 * k.val + r.val
        rw [k0_off1_eq, lhs_1, hk]
        show 2560 * k.val + 1 * r.val = 2560 * k.val + r.val
        omega)
  have er : (chunk k).idx (dot_S256x2560_S256x2560_S256x256_1_1_0_0_n_n.rhsIdx (ix2 p q)
      ((contrEquiv1 dot_S256x2560_S256x2560_S256x256_1_1_0_0_n_n 2560 rfl rfl).symm r)) = ix2 q (col k r) :=
    funext fun ax => Fin.ext (by
      match ax with
      | ⟨0, _⟩ =>
        show k0_off1 k 0 + 1 * (dot_S256x2560_S256x2560_S256x256_1_1_0_0_n_n.rhsIdx (ix2 p q) _ 0).val = q.val
        rw [k0_off1_eq, rhs_0]
        show 0 + 1 * q.val = q.val
        omega
      | ⟨1, _⟩ =>
        show k0_off1 k 1 + 1 * (dot_S256x2560_S256x2560_S256x256_1_1_0_0_n_n.rhsIdx (ix2 p q) _ 1).val = 2560 * k.val + r.val
        rw [k0_off1_eq, rhs_1, hk]
        show 2560 * k.val + 1 * r.val = 2560 * k.val + r.val
        omega)
  show x0 ((chunk k).idx _) * x1 ((chunk k).idx _) = _
  rw [el, er]

end Cert.KernelIdeal.Accum

end
-- ==== Proof.LibTileSum.lean ====
/-
  A sum over all positions of a tiled range, taken tile by tile.
-/
import Mathlib.Algebra.BigOperators.Fin
import Mathlib.Logic.Equiv.Fin.Basic

namespace Cert.LibTileSum

/-- Position `r` of tile `i`, of `a` tiles of `b` positions each, among all `a * b` positions. -/
def pos {a b : ℕ} (i : Fin a) (r : Fin b) : Fin (a * b) :=
  ⟨b * i.val + r.val, by
    have hi := i.isLt; have hr := r.isLt
    have h1 : b * i.val + b ≤ b * a := by
      have : b * (i.val + 1) ≤ b * a := Nat.mul_le_mul_left _ hi
      rwa [Nat.mul_succ] at this
    rw [Nat.mul_comm a b]; omega⟩

theorem pos_val {a b : ℕ} (i : Fin a) (r : Fin b) : (pos i r).val = b * i.val + r.val := rfl

/-- Summing tile by tile, and within a tile position by position, is summing over all positions. -/
theorem sum_tiles {M : Type*} [AddCommMonoid M] {a b : ℕ} (f : Fin (a * b) → M) :
    ∑ i : Fin a, ∑ r : Fin b, f (pos i r) = ∑ n : Fin (a * b), f n := by
  rw [← Finset.sum_product' (f := fun i r => f (pos i r)), Finset.univ_product_univ]
  refine Fintype.sum_equiv (finProdFinEquiv (m := a) (n := b)) _ _ fun p => ?_
  congr 1
  apply Fin.ext
  simp [pos_val, finProdFinEquiv, Nat.add_comm]

end Cert.LibTileSum
-- ==== Proof.FourChunks.lean ====
/-
  Four chunk sums, added in order onto zero, are the sum over all columns.

  With the 10240 columns cut into 4 chunks of 2560, column 2560·j + r is position r of chunk j. Adding the four
  chunks' sums one after another onto zero only re-associates one sum over all positions and drops the leading zero:
  it holds in every commutative additive monoid, so over the extended reals with their infinities too.
-/
import proofs.«402725_j68762426409220_3_alg».proof.Proof.LibTileSum
import Mathlib.Algebra.BigOperators.Fin

namespace Cert.FourChunks

open Cert.LibTileSum
open scoped BigOperators

/-- `(((0 + S₀) + S₁) + S₂) + S₃ = Σ` over all `4 · 2560` positions, where `Sⱼ` sums chunk j. -/
theorem sum_in_order {M : Type*} [AddCommMonoid M] (f : Fin (4 * 2560) → M) :
    (((0 + ∑ r : Fin 2560, f (pos (0 : Fin 4) r)) + ∑ r : Fin 2560, f (pos (1 : Fin 4) r))
        + ∑ r : Fin 2560, f (pos (2 : Fin 4) r)) + ∑ r : Fin 2560, f (pos (3 : Fin 4) r)
      = ∑ n : Fin (4 * 2560), f n := by
  rw [← sum_tiles (a := 4) (b := 2560) f, Fin.sum_univ_four, zero_add]

end Cert.FourChunks
-- ==== Proof.BlockValue.lean ====
/-
  The body's output block, entry by entry: a row of the first input block times a row of the second.

  Zero, then four steps; step k adds the products over columns 2560·k … 2560·k + 2559. Added in that order onto zero the
  four chunk sums are the one sum over all 10240 columns, so entry (p, q) of the block the body leaves is
      Σ_{n < 10240} x0[p, n] · x1[q, n].
-/
import proofs.«402725_j68762426409220_3_alg».proof.Proof.StepValue
import proofs.«402725_j68762426409220_3_alg».proof.Proof.FourChunks

noncomputable section

namespace Cert.KernelIdeal.Accum

open Cert.KernelIdeal Cert.KernelIdeal.Gen Idealize.ShloMosaic Idealize.ShloMosaic.ValueIdx
open scoped BigOperators

/-- The block the body stores first reads zero everywhere. -/
theorem zero_apply (y : S256x256.Idx) : k0_pay1 (F := Ideal) y = 0 := by
  unfold k0_pay1
  show Ideal.ofBits .f32 0x00000000#32 = 0
  exact Ideal.ofBits_zero_f32

/-- Column 2560·j + r, as trip j's r-th column and as position r of chunk j of the 4 · 2560 columns. -/
theorem col_t0 (r : Fin 2560) : col t0 r = Cert.LibTileSum.pos (0 : Fin 4) r := rfl
theorem col_t1 (r : Fin 2560) : col t1 r = Cert.LibTileSum.pos (1 : Fin 4) r := rfl
theorem col_t2 (r : Fin 2560) : col t2 r = Cert.LibTileSum.pos (2 : Fin 4) r := rfl
theorem col_t3 (r : Fin 2560) : col t3 r = Cert.LibTileSum.pos (3 : Fin 4) r := rfl

/-- ENTRY (p, q) OF THE BLOCK THE BODY LEAVES: row p of the first input block times row q of the second, summed over all
    10240 columns. -/
theorem block_apply (x0 : Vec Ideal S256x10240 .f32) (x1 : Vec Ideal S256x10240 .bf16) (p q : Fin 256) :
    step x0 x1 t3 (step x0 x1 t2 (step x0 x1 t1 (step x0 x1 t0 (k0_pay1 (F := Ideal))))) (ix2 p q)
      = ∑ n : Fin 10240, x0 (ix2 p n) * x1 (ix2 q n) := by
  rw [step_apply, step_apply, step_apply, step_apply, zero_apply]
  simp only [col_t0, col_t1, col_t2, col_t3]
  exact Cert.FourChunks.sum_in_order (fun n : Fin (4 * 2560) => x0 (ix2 p n) * x1 (ix2 q n))

end Cert.KernelIdeal.Accum

end
-- ==== Proof.Spec.lean ====
/-
  The result both programs compute, as one function of the two argument arrays over the extended reals:
      out[b, c] = Σ_{d < 10240} samples[b, d] · classes[c, d]
  — every row of `samples` against every row of `classes`, contracting the 10240 columns.
-/
import Idealize.ShloMosaic.PureOps.Ideal
import Idealize.ShloMosaic.Lib.ValueIdx

noncomputable section

namespace Cert.Spec

open Idealize.ShloMosaic Idealize.ShloMosaic.ValueIdx
open scoped BigOperators

/-- Entry (b, c) of the result: row b of the first array times row c of the second, summed over all columns. -/
def G (A : (⟨2, ![8192, 10240]⟩ : Shape).Idx → EReal) (B : (⟨2, ![256, 10240]⟩ : Shape).Idx → EReal) :
    (⟨2, ![8192, 256]⟩ : Shape).Idx → EReal :=
  fun i => ∑ n : Fin 10240,
    A (ix2 (n0 := 8192) (n1 := 10240) ⟨(i 0).val, (i 0).isLt⟩ n) * B (ix2 (n0 := 256) (n1 := 10240) ⟨(i 1).val, (i 1).isLt⟩ n)

end Cert.Spec

end
-- ==== Proof.KernelValue.lean ====
/-
  The kernel's result array after the run: the specified function of the argument arrays.

  Grid point t stages rows 256·t … 256·t + 255 of `samples` (all 10240 columns) and the whole of `classes` — which a
  host operation has first cast to a 16-bit float format, the identity over the extended reals —, and writes back rows
  256·t … 256·t + 255 of the result (all 256 columns). Entry (p, q) of the block it writes is row p of the staged
  `samples` block times row q of `classes` over all columns, that is entry (256·t + p, q) of the specified result. The 32
  points' blocks tile the 8192 rows, so the whole array ends at the specified result.
-/
import proofs.«402725_j68762426409220_3_alg».proof.Proof.Gen.KernelIdeal.Value
import proofs.«402725_j68762426409220_3_alg».proof.Proof.BlockValue
import proofs.«402725_j68762426409220_3_alg».proof.Proof.Spec

set_option maxRecDepth 16384

noncomputable section

namespace Cert.KernelIdeal.Whole

open Cert.KernelIdeal Cert.KernelIdeal.Gen Cert.KernelIdeal.Value Cert.KernelIdeal.Accum
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The two arrays as the region finds them, and the two blocks point t stages, at their literal types. -/
abbrev xarr (c : Dev nD) : Vec Ideal S8192x10240 .f32 := V m c main_arg0
abbrev warr (c : Dev nD) : Vec Ideal S256x10240 .bf16 := V m c main_call0_v0
abbrev xblk (c : Dev nD) (t : Fin cfg0.N) : Vec Ideal S256x10240 .f32 := iblk m c 0 t
abbrev wblk (c : Dev nD) (t : Fin cfg0.N) : Vec Ideal S256x10240 .bf16 := iblk m c 1 t

/-- Where the windows' blocks sit, decided over the 32 points: point t's block of `samples` and of the result is block
    row t, column block 0; `classes` is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- ONE ENTRY of a written block against the specification, over plain arrays: if the staged `samples` block is rows
    256·T … of `A` and the staged `classes` block is `B`, then entry `y` of the block the body leaves is entry
    (256·T + y₀, y₁) of the specified result. -/
theorem entry (A : Vec Ideal S8192x10240 .f32) (B : Vec Ideal S256x10240 .bf16)
    (x0 : Vec Ideal S256x10240 .f32) (x1 : Vec Ideal S256x10240 .bf16) (T : ℕ) (hT : T < 32)
    (h0 : ∀ (p : Fin 256) (n : Fin 10240), x0 (ix2 p n) = A (ix2 (n0 := 8192) (n1 := 10240) ⟨256 * T + p.val, by have := p.isLt; omega⟩ n))
    (h1 : ∀ (q : Fin 256) (n : Fin 10240), x1 (ix2 q n) = B (ix2 q n))
    (y : S256x256.Idx) (i : S8192x256.Idx) (hi0 : (i 0).val = 256 * T + (y 0).val) (hi1 : (i 1).val = (y 1).val) :
    step x0 x1 t3 (step x0 x1 t2 (step x0 x1 t1 (step x0 x1 t0 (k0_pay1 (F := Ideal))))) y = Cert.Spec.G A B i := by
  obtain ⟨p, q, rfl⟩ : ∃ (p q : Fin 256), y = ix2 p q := ⟨y 0, y 1, eq_ix2 y⟩
  rw [block_apply]
  unfold Cert.Spec.G
  refine Finset.sum_congr rfl fun n _ => ?_
  rw [h0, h1]
  have ea : (⟨256 * T + p.val, by have := p.isLt; omega⟩ : Fin 8192) = ⟨(i 0).val, (i 0).isLt⟩ := Fin.ext hi0.symm
  have eb : q = (⟨(i 1).val, (i 1).isLt⟩ : Fin 256) := Fin.ext hi1.symm
  rw [ea, ← eb]

/-- WHAT POINT t WRITES BACK is block t of the specified result of the arrays as the region finds them. -/
theorem flushed_eq (c : Dev nD) (t : Fin cfg0.N) :
    (dats m 0 c).flushed 2 t = ((cfg0.win 2).blk t).view.read (Elt Ideal) (Cert.Spec.G (xarr m c) (warr m c)) := by
  rw [flushed2_A, block_eq]
  obtain ⟨e00, e01, e10, e11, e20, e21⟩ := idx_facts t
  funext j
  show step (xblk m c t) (wblk m c t) t3 (step (xblk m c t) (wblk m c t) t2 (step (xblk m c t) (wblk m c t) t1
      (step (xblk m c t) (wblk m c t) t0 (k0_pay1 (F := Ideal))))) j
    = Cert.Spec.G (xarr m c) (warr m c) (((cfg0.win 2).blk t).view.emb j)
  refine entry (xarr m c) (warr m c) (xblk m c t) (wblk m c t) t.val (show t.val < 32 from t.isLt) ?_ ?_ j _ ?_ ?_
  · intro p n
    show V m c main_arg0 (((cfg0.win 0).blk t).view.emb (ix2 p n)) = V m c main_arg0 _
    refine congrArg (V m c main_arg0) (funext fun a => Fin.ext ?_)
    match a with
    | ⟨0, _⟩ => show win0_0.index t (0 : Fin 2) * 256 + 1 * p.val = 256 * t.val + p.val; rw [e00]; omega
    | ⟨1, _⟩ => show win0_0.index t (1 : Fin 2) * 10240 + 1 * n.val = n.val; rw [e01]; omega
  · intro q n
    show V m c main_call0_v0 (((cfg0.win 1).blk t).view.emb (ix2 q n)) = V m c main_call0_v0 _
    refine congrArg (V m c main_call0_v0) (funext fun a => Fin.ext ?_)
    match a with
    | ⟨0, _⟩ => show win0_1.index t (0 : Fin 2) * 256 + 1 * q.val = q.val; rw [e10]; omega
    | ⟨1, _⟩ => show win0_1.index t (1 : Fin 2) * 10240 + 1 * n.val = n.val; rw [e11]; omega
  · show win0_2.index t (0 : Fin 2) * 256 + 1 * (j 0).val = 256 * t.val + (j 0).val
    rw [e20]; omega
  · show win0_2.index t (1 : Fin 2) * 256 + 1 * (j 1).val = (j 1).val
    rw [e21]; omega

/-- An index of the result is in point t's block iff each coordinate is in the block's range on its axis. -/
theorem mem_blk (t : Fin cfg0.N) (i : S8192x256.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v0).slice (win0_2.rect t)).set ↔ _
  rw [View.set_slice_whole, Rect.mem_set_unit]
  exact Iff.rfl

/-- Every entry of the result is written: row b lies in the block of point b / 256. -/
theorem cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have ht : (i 0).val / 256 < 32 := by omega
  obtain ⟨-, -, -, -, e20, e21⟩ := idx_facts ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e20]; show (i 0).val / 256 * 256 ≤ (i 0).val ∧ (i 0).val < (i 0).val / 256 * 256 + 256; omega
  | ⟨1, _⟩ =>
    show win0_2.index ⟨(i 0).val / 256, ht⟩ (1 : Fin 2) * 256 ≤ (i 1).val
      ∧ (i 1).val < win0_2.index ⟨(i 0).val / 256, ht⟩ (1 : Fin 2) * 256 + 256
    rw [e21]; omega

/-- The cast of `classes` the host makes before the region is, over the extended reals, `classes` itself. -/
theorem warr_eq (c : Dev nD) : warr m c = m ((c : Thread nD τ).loc main_arg1) := by
  have e : (V m c main_call0_v0 : S256x10240.Idx → EReal)
      = truncf (F := Ideal) .bf16 (m ((c : Thread nD τ).loc main_arg1)) bitsLt_bf16_f32 := by
    dsimp only [V, hostOps0]; after_results; rfl
  exact e

/-- THE RESULT ARRAY after the run is the specified function of the argument arrays as launched. -/
theorem final (c : Dev nD) :
    (dats m 0 c).arrAt 2 cfg0.N
      = Cert.Spec.G (m ((c : Thread nD τ).loc main_arg0)) (m ((c : Thread nD τ).loc main_arg1)) := by
  rw [(dats m 0 c).arrAt_eq_of_cover 2 (Cert.Spec.G (xarr m c) (warr m c)) (fun t _ => flushed_eq m c t) cover,
    warr_eq, show xarr m c = m ((c : Thread nD τ).loc main_arg0) from V_main_arg0 m c]

/-- The kernel's run with its result array named: the specified function of the arguments, which end unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefValue.lean ====
/-
  The reference computes the specified result: its one operation, a product contracting the second axis of both
  arguments, read at entry (b, c) is the sum over the 10240 columns of `samples[b, d] · classes[c, d]`.
-/
import proofs.«402725_j68762426409220_3_alg».proof.Proof.Gen.ReferenceIdeal.Read
import proofs.«402725_j68762426409220_3_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-- The reference's result array is the specified function of its two argument arrays. -/
theorem result_eq (x0 : (⟨S8192x10240, .f32⟩ : BufTy).Contents (Elt Ideal)) (x1 : (⟨S256x10240, .f32⟩ : BufTy).Contents (Elt Ideal)) :
    val_main_v0 (F := Ideal) x0 x1 = Cert.Spec.G x0 x1 := by
  funext i
  rw [val_main_v0_apply]
  unfold Cert.Spec.G
  refine Finset.sum_congr rfl fun k _ => ?_
  have el : lidx_main_v0 i k = ix2 (n0 := 8192) (n1 := 10240) ⟨(i 0).val, (i 0).isLt⟩ k :=
    funext fun a => by match a with | ⟨0, _⟩ => rfl | ⟨1, _⟩ => rfl
  have er : ridx_main_v0 i k = ix2 (n0 := 256) (n1 := 10240) ⟨(i 1).val, (i 1).isLt⟩ k :=
    funext fun a => by match a with | ⟨0, _⟩ => rfl | ⟨1, _⟩ => rfl
  rw [el, er]

end Cert.ReferenceIdeal.RefValue

end
-- ==== Proof.lean ====
/- The certificate: the kernel and its reference compute the same array over the extended reals.

   The reference is one product, `out[b, c] = Σ_{d < 10240} samples[b, d] · classes[c, d]`. The kernel casts `classes`
   to a 16-bit float format on the host and walks 32 grid points; point t stages rows 256·t … 256·t + 255 of `samples`
   and all of `classes`, zeroes a 256 × 256 output block, and in four trips adds into it the products over columns
   2560·k … 2560·k + 2559 (casting the `samples` chunk to the 16-bit format first), then writes the block back as rows
   256·t … of the result. Over the extended reals the casts are the identity and a product into a zero accumulator is a
   plain sum, so an entry of the block is `(((0 + S₀) + S₁) + S₂) + S₃` with `Sₖ` the products over trip k's columns:
   the one sum over all 10240 columns, by re-association alone — no distributivity and no cancelling, so the inputs'
   finiteness is never used. The 32 blocks tile the result.

   Trip.lean reads the body's stores (the zero store, then one whole-block store per trip, each payload a function of
   the block as the earlier stores left it); StepValue.lean reads one trip at an entry; FourChunks.lean (over
   LibTileSum.lean) is the re-association; BlockValue.lean the block's entries; KernelValue.lean the result array and
   the kernel's run; RefValue.lean the reference; Spec.lean the common function. The three frames are the generated
   runs; the idealization rewrote nothing, so it has nothing to preserve. -/
import proofs.«402725_j68762426409220_3_alg».proof.Defs
import proofs.«402725_j68762426409220_3_alg».proof.Proof.Gen.Kernel
import proofs.«402725_j68762426409220_3_alg».proof.Proof.Gen.Kernel.Skeleton
import proofs.«402725_j68762426409220_3_alg».proof.Proof.Gen.Kernel.Loops
import proofs.«402725_j68762426409220_3_alg».proof.Proof.Gen.Kernel.Launch
import proofs.«402725_j68762426409220_3_alg».proof.Proof.Gen.Kernel.Points
import proofs.«402725_j68762426409220_3_alg».proof.Proof.Gen.Kernel.Frame
import proofs.«402725_j68762426409220_3_alg».proof.Proof.Gen.KernelIdeal
import proofs.«402725_j68762426409220_3_alg».proof.Proof.Gen.KernelIdeal.Skeleton
import proofs.«402725_j68762426409220_3_alg».proof.Proof.Gen.KernelIdeal.Loops
import proofs.«402725_j68762426409220_3_alg».proof.Proof.Gen.KernelIdeal.Launch
import proofs.«402725_j68762426409220_3_alg».proof.Proof.Gen.KernelIdeal.Points
import proofs.«402725_j68762426409220_3_alg».proof.Proof.Gen.KernelIdeal.Frame
import proofs.«402725_j68762426409220_3_alg».proof.Proof.Gen.ReferenceIdeal
import proofs.«402725_j68762426409220_3_alg».proof.Proof.Gen.Pre_finite_inputs
import proofs.«402725_j68762426409220_3_alg».proof.Proof.Gen.KernelIdeal.Value
import proofs.«402725_j68762426409220_3_alg».proof.Proof.Gen.ReferenceIdeal.Run
import proofs.«402725_j68762426409220_3_alg».proof.Proof.Gen.ReferenceIdeal.Read
import proofs.«402725_j68762426409220_3_alg».proof.Proof.KernelValue
import proofs.«402725_j68762426409220_3_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as launched: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the result array at the specified function
    of the arguments: the kernel block by block, the reference by its one product. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
